-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x256 : Shape := ⟨2, ![500000, 256]⟩
abbrev S256x16 : Shape := ⟨2, ![256, 16]⟩
abbrev S16x256 : Shape := ⟨2, ![16, 256]⟩
abbrev S_ : Shape := ⟨0, ![]⟩

class Facts : Prop where
  bcast_S_S500000x256 : S_.BroadcastsInDim S500000x256 (![] : Fin 0 → Fin S500000x256.rank)
  reducesTo_S500000x256_S_d0_1 : S500000x256.ReducesTo [0, 1] S_
  h_S_ : 0 < S_.numel
  bcast_S_S256x16 : S_.BroadcastsInDim S256x16 (![] : Fin 0 → Fin S256x16.rank)
  reducesTo_S256x16_S_d0_1 : S256x16.ReducesTo [0, 1] S_
  bcast_S_S16x256 : S_.BroadcastsInDim S16x256 (![] : Fin 0 → Fin S16x256.rank)
  reducesTo_S16x256_S_d0_1 : S16x256.ReducesTo [0, 1] S_

variable [Facts]

def fn {F : FTy → Type} [FloatOps F] (main_arg0 : FVec F S500000x256 .f32) (main_arg1 : FVec F S256x16 .f32) (main_arg2 : FVec F S16x256 .f32) : IVec S_ 1 :=
  let main_v0 : FVec F S500000x256 .f32 := Host.absf main_arg0
  let main_cst : FVec F S_ .f32 := constant S_ .f32 0x7F800000#32
  let main_v1 : FVec F S500000x256 .f32 := broadcastInDim S500000x256 ![] bcast_S_S500000x256 main_cst
  let main_v2 : IVec S500000x256 1 := cmpf .olt main_v0 main_v1
  let main_c : IVec S_ 1 := constantI S_ 1 1#1
  let main_v3 : IVec S_ 1 := (fun x v => Host.reduce IntOp.andi x v reducesTo_S500000x256_S_d0_1 h_S_) main_v2 main_c
  let main_v4 : FVec F S256x16 .f32 := Host.absf main_arg1
  let main_cst_0 : FVec F S_ .f32 := constant S_ .f32 0x7F800000#32
  let main_v5 : FVec F S256x16 .f32 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  let main_v9 : FVec F S16x256 .f32 := Host.absf main_arg2
  let main_cst_2 : FVec F S_ .f32 := constant S_ .f32 0x7F800000#32
  let main_v10 : FVec F S16x256 .f32 := broadcastInDim S16x256 ![] bcast_S_S16x256 main_cst_2
  let main_v11 : IVec S16x256 1 := cmpf .olt main_v9 main_v10
  let main_c_3 : IVec S_ 1 := constantI S_ 1 1#1
  let main_v12 : IVec S_ 1 := (fun x v => Host.reduce IntOp.andi x v reducesTo_S16x256_S_d0_1 h_S_) main_v11 main_c_3
  let main_v13 : IVec S_ 1 := andi main_v8 main_v12
  main_v13
-- ==== Kernel.lean ====
abbrev S500000x256 : Shape := ⟨2, ![500000, 256]⟩
abbrev S256x16 : Shape := ⟨2, ![256, 16]⟩
abbrev S16x256 : Shape := ⟨2, ![16, 256]⟩
abbrev S5000x256 : Shape := ⟨2, ![5000, 256]⟩
abbrev S5000x16 : Shape := ⟨2, ![5000, 16]⟩

abbrev nBuf : Space → Nat
  | .hbm => 4
  | .vmem => 6
  | .smem => 0
  | _ => 0

abbrev bufTy : (tb : Table) → Fin (tcTables nBuf tb) → BufTy
  | .hbm, ⟨0, _⟩ => ⟨S500000x256, .f32⟩
  | .hbm, ⟨1, _⟩ => ⟨S256x16, .f32⟩
  | .hbm, ⟨2, _⟩ => ⟨S16x256, .f32⟩
  | .hbm, ⟨3, _⟩ => ⟨S500000x256, .f32⟩
  | .local _ .vmem, ⟨0, _⟩ => ⟨S5000x256, .f32⟩
  | .local _ .vmem, ⟨1, _⟩ => ⟨S5000x256, .f32⟩
  | .local _ .vmem, ⟨2, _⟩ => ⟨S256x16, .f32⟩
  | .local _ .vmem, ⟨3, _⟩ => ⟨S16x256, .f32⟩
  | .local _ .vmem, ⟨4, _⟩ => ⟨S5000x256, .f32⟩
  | .local _ .vmem, ⟨5, _⟩ => ⟨S5000x256, .f32⟩
  | _, _ => ⟨S500000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x16_S256x16_0_0 : ∀ a, (![0, 0] : Fin 2 → Nat) a + S256x16.size a ≤ S256x16.size a
  h_S256x16 : 0 < S256x16.numel
  inb_S16x256_S16x256_0_0 : ∀ a, (![0, 0] : Fin 2 → Nat) a + S16x256.size a ≤ S16x256.size a
  h_S16x256 : 0 < S16x256.numel
  dot_S5000x256_S256x16_S5000x16_1_0_0_1_n_n_wf : DotDims.WF S5000x256 S256x16 S5000x16 [1] [0] [0] [1] [] []
  dot_S5000x16_S16x256_S5000x256_1_0_0_1_n_n_wf : DotDims.WF S5000x16 S16x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S500000x256.size a
  hwx0_0 : ∀ i : grid0.Coords, EltTy.bits .f32 = 32 ∨ (Rect.block (s := S500000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .f32 = 32 ∨ (Rect.block (s := S256x16) S256x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x256.size a ≤ S16x256.size a
  hwx0_2 : ∀ i : grid0.Coords, EltTy.bits .f32 = 32 ∨ (Rect.block (s := S16x256) S16x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S500000x256.size a
  hwx0_3 : ∀ i : grid0.Coords, EltTy.bits .f32 = 32 ∨ (Rect.block (s := S500000x256) S5000x256.size (cc0_transform_3 i) (hinb0_3 i)).WholeWords (EltTy.packing .f32)

variable [Facts₀]

def dot_S5000x256_S256x16_S5000x16_1_0_0_1_n_n : DotDims S5000x256 S256x16 S5000x16 where
  lhsContracting := [1]
  rhsContracting := [0]
  lhsNonContracting := [0]
  rhsNonContracting := [1]
  lhsBatch := []
  rhsBatch := []
  wf := dot_S5000x256_S256x16_S5000x16_1_0_0_1_n_n_wf
def dot_S5000x16_S16x256_S5000x256_1_0_0_1_n_n : DotDims S5000x16 S16x256 S5000x256 where
  lhsContracting := [1]
  rhsContracting := [0]
  lhsNonContracting := [0]
  rhsNonContracting := [1]
  lhsBatch := []
  rhsBatch := []
  wf := dot_S5000x16_S16x256_S5000x256_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S500000x256 : Shape := ⟨2, ![500000, 256]⟩
abbrev S256x16 : Shape := ⟨2, ![256, 16]⟩
abbrev S16x256 : Shape := ⟨2, ![16, 256]⟩
abbrev S500000x16 : Shape := ⟨2, ![500000, 16]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S500000x256, .f32⟩
  | .hbm, ⟨1, _⟩ => ⟨S256x16, .f32⟩
  | .hbm, ⟨2, _⟩ => ⟨S16x256, .f32⟩
  | .hbm, ⟨3, _⟩ => ⟨S500000x16, .f32⟩
  | .hbm, ⟨4, _⟩ => ⟨S_, .f32⟩
  | .hbm, ⟨5, _⟩ => ⟨S500000x16, .f32⟩
  | .hbm, ⟨6, _⟩ => ⟨S500000x16, .f32⟩
  | .hbm, ⟨7, _⟩ => ⟨S500000x256, .f32⟩
  | .hbm, ⟨8, _⟩ => ⟨S500000x16, .f32⟩
  | .hbm, ⟨9, _⟩ => ⟨S_, .f32⟩
  | .hbm, ⟨10, _⟩ => ⟨S500000x16, .f32⟩
  | .hbm, ⟨11, _⟩ => ⟨S500000x16, .f32⟩
  | .hbm, ⟨12, _⟩ => ⟨S500000x256, .f32⟩
  | .hbm, ⟨13, _⟩ => ⟨S500000x256, .f32⟩
  | .hbm, ⟨14, _⟩ => ⟨S500000x256, .f32⟩
  | .hbm, ⟨15, _⟩ => ⟨S500000x256, .f32⟩
  | .hbm, ⟨16, _⟩ => ⟨S_, .f32⟩
  | .hbm, ⟨17, _⟩ => ⟨S500000x256, .f32⟩
  | .hbm, ⟨18, _⟩ => ⟨S500000x256, .f32⟩
  | .hbm, ⟨19, _⟩ => ⟨S_, .f32⟩
  | .hbm, ⟨20, _⟩ => ⟨S500000x256, .f32⟩
  | .hbm, ⟨21, _⟩ => ⟨S500000x256, .f32⟩
  | .hbm, ⟨22, _⟩ => ⟨S500000x256, .f32⟩
  | _, _ => ⟨S500000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  bcast_S_S500000x16 : S_.BroadcastsInDim S500000x16 (![] : Fin 0 → Fin S500000x16.rank)
  bcast_S_S500000x256 : S_.BroadcastsInDim S500000x256 (![] : Fin 0 → Fin S500000x256.rank)
  dot_S500000x256_S256x16_S500000x16_1_0_0_1_n_n_wf : DotDims.WF S500000x256 S256x16 S500000x16 [1] [0] [0] [1] [] []
  dot_S500000x16_S16x256_S500000x256_1_0_0_1_n_n_wf : DotDims.WF S500000x16 S16x256 S500000x256 [1] [0] [0] [1] [] []

variable [Facts₀]

def dot_S500000x256_S256x16_S500000x16_1_0_0_1_n_n : DotDims S500000x256 S256x16 S500000x16 where
  lhsContracting := [1]
  rhsContracting := [0]
  lhsNonContracting := [0]
  rhsNonContracting := [1]
  lhsBatch := []
  rhsBatch := []
  wf := dot_S500000x256_S256x16_S500000x16_1_0_0_1_n_n_wf
def dot_S500000x16_S16x256_S500000x256_1_0_0_1_n_n : DotDims S500000x16 S16x256 S500000x256 where
  lhsContracting := [1]
  rhsContracting := [0]
  lhsNonContracting := [0]
  rhsNonContracting := [1]
  lhsBatch := []
  rhsBatch := []
  wf := dot_S500000x16_S16x256_S500000x256_1_0_0_1_n_n_wf

class Facts : Prop extends Facts₀ where

variable [Facts]
-- ==== Proof.GateSpec.lean ====
/-
  The function both programs compute, on the extended reals.

  For a row `r` of `x : [500000, 256]` the hidden vector is `h r k = max (∑ j, x r j · W1 j k) 0` (sixteen entries), the
  mixed row is `s r c = ∑ k, h r k · W2 k c`, and the result is `x r c · σ(2 · s r c)` with `σ y = 1 / (1 + e^(-y))`
  read with the extended reals' corners. One side doubles `s` by a product with the constant two and applies the
  logistic as one operation; the other adds `s` to itself and spells the logistic out as a quotient. The two meet by
  two facts proved here: `2 · a = a + a` on every extended real (the infinities included, so no finiteness is asked
  of the inputs), and the quotient `1 / (1 + e^(-a))` is the logistic by definition.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.Gate

/-! ## The two literals -/

/-- The f32 pattern `0x3F800000` denotes the extended real one. -/
theorem one_f32 : Ideal.ofBits .f32 0x3F800000#32 = 1 := by
  simp [Ideal.ofBits, Ideal.ieee, -EReal.coe_mul]; norm_num

/-- The f32 pattern `0x40000000` denotes the extended real two. -/
theorem two_f32 : Ideal.ofBits .f32 0x40000000#32 = 2 := by
  simp [Ideal.ofBits, Ideal.ieee, -EReal.coe_mul]; norm_num; rfl

/-! ## Doubling -/

/-- Twice an extended real is the real added to itself: on a real by `two_mul`, and `2 · ±∞ = ±∞ = ±∞ + ±∞`. -/
theorem two_mul_self (a : EReal) : (2 : EReal) * a = a + a := by
  have h2 : (0 : EReal) < 2 := by norm_num
  induction a using EReal.rec with
  | bot => rw [EReal.mul_bot_of_pos h2, EReal.bot_add]
  | coe r =>
    rw [show (2 : EReal) = ((2 : ℝ) : EReal) from rfl, ← EReal.coe_mul, ← EReal.coe_add, two_mul]
  | top => rw [EReal.mul_top_of_pos h2, EReal.top_add_top]

/-- The quotient `1 / (1 + e^(-(a + a)))`, in the extended reals' division, is the logistic of `2 · a`. -/
theorem logistic_double (a : EReal) :
    Ideal.div 1 (1 + Ideal.exp (-(a + a))) = Ideal.logistic (2 * a) := by
  rw [two_mul_self]; rfl

/-! ## The function -/

/-- The three argument shapes. -/
abbrev Rows : Shape := ⟨2, ![500000, 256]⟩
abbrev Down : Shape := ⟨2, ![256, 16]⟩
abbrev Up : Shape := ⟨2, ![16, 256]⟩

/-- Row `r` of `x` against column `k` of the first weight, clamped below at zero. -/
def hidden (x : Rows.Idx → EReal) (w1 : Down.Idx → EReal) (r : Fin 500000) (k : Fin 16) : EReal :=
  max (∑ j : Fin 256, x (ix2 r j) * w1 (ix2 j k)) 0

/-- The hidden vector of row `r` against column `c` of the second weight. -/
def mixed (x : Rows.Idx → EReal) (w1 : Down.Idx → EReal) (w2 : Up.Idx → EReal) (r : Fin 500000) (c : Fin 256) : EReal :=
  ∑ k : Fin 16, hidden x w1 r k * w2 (ix2 k c)

/-- The result array: each entry of `x` scaled by the logistic of twice its row's mixed value at that column. -/
def gated (x : Rows.Idx → EReal) (w1 : Down.Idx → EReal) (w2 : Up.Idx → EReal) : Rows.Idx → EReal :=
  fun i => x i * Ideal.logistic (2 * mixed x w1 w2 (i 0) (i 1))

end Cert.Gate

end
-- ==== Proof.RefGate.lean ====
/-
  The reference's result is `Cert.Gate.gated` of its three arguments.

  Read one operation at a time, the reference computes at an index `i = (r, c)`:
  `x i · (1 / (1 + e^(-(s + s))))` with `s = ∑ k, max (∑ j, x (r, j) · W1 (j, k)) 0 · W2 (k, c)` — the same sum `s` twice,
  because the source applies its two-layer map to `x` two times and adds the results. The contraction indices the
  two matrix products read are the coordinates `(r, j)`, `(j, k)`, `(k, c)`; `s + s` is `2 · s` and the quotient is
  the logistic (`Cert.Gate.logistic_double`).
-/
import proofs.«148490_j83837761618430_1_alg».proof.Proof.Gen.ReferenceIdeal.Read
import proofs.«148490_j83837761618430_1_alg».proof.Proof.GateSpec

noncomputable section

open scoped BigOperators
open Idealize.ShloMosaic Idealize.ShloMosaic.ValueIdx

namespace Cert.Gate.Ref

open Cert.ReferenceIdeal Cert.ReferenceIdeal.Gen Cert.ReferenceIdeal.Read Cert.Gate

/-! ## The operand indices of the matrix products, as coordinates -/

/-- First product, first copy: the left operand is read at row `r` of the output index's row, column `j`. -/
theorem left_v0 (i : S500000x256.Idx) (k : Fin 16) (j : Fin 256) :
    lidx_main_v0 (lidx_main_v3 i k) j = ix2 (n0 := 500000) (n1 := 256) (i 0) j :=
  funext fun a => Fin.ext (by match a with | ⟨0, _⟩ => rfl | ⟨1, _⟩ => rfl)

/-- First product, first copy: the right operand is read at row `j`, column `k`. -/
theorem right_v0 (i : S500000x256.Idx) (k : Fin 16) (j : Fin 256) :
    ridx_main_v0 (lidx_main_v3 i k) j = ix2 (n0 := 256) (n1 := 16) j k :=
  funext fun a => Fin.ext (by match a with | ⟨0, _⟩ => rfl | ⟨1, _⟩ => rfl)

/-- Second product, first copy: the second weight is read at row `k`, the output index's column. -/
theorem right_v3 (i : S500000x256.Idx) (k : Fin 16) :
    ridx_main_v3 i k = ix2 (n0 := 16) (n1 := 256) k (i 1) :=
  funext fun a => Fin.ext (by match a with | ⟨0, _⟩ => rfl | ⟨1, _⟩ => rfl)

/-- The second copy of the two-layer map reads the same entries. -/
theorem left_v4 (i : S500000x256.Idx) (k : Fin 16) (j : Fin 256) :
    lidx_main_v4 (lidx_main_v7 i k) j = ix2 (n0 := 500000) (n1 := 256) (i 0) j :=
  funext fun a => Fin.ext (by match a with | ⟨0, _⟩ => rfl | ⟨1, _⟩ => rfl)

theorem right_v4 (i : S500000x256.Idx) (k : Fin 16) (j : Fin 256) :
    ridx_main_v4 (lidx_main_v7 i k) j = ix2 (n0 := 256) (n1 := 16) j k :=
  funext fun a => Fin.ext (by match a with | ⟨0, _⟩ => rfl | ⟨1, _⟩ => rfl)

theorem right_v7 (i : S500000x256.Idx) (k : Fin 16) :
    ridx_main_v7 i k = ix2 (n0 := 16) (n1 := 256) k (i 1) :=
  funext fun a => Fin.ext (by match a with | ⟨0, _⟩ => rfl | ⟨1, _⟩ => rfl)

/-! ## The reference is `gated` -/

/-- The reference's last stage, at the extended reals, is `gated` of the arguments. -/
theorem reference_is_gated (x0 : (⟨S500000x256, .f32⟩ : BufTy).Contents (Elt Ideal))
    (x1 : (⟨S256x16, .f32⟩ : BufTy).Contents (Elt Ideal)) (x2 : (⟨S16x256, .f32⟩ : BufTy).Contents (Elt Ideal)) :
    val_main_v15 (F := Ideal) x0 x1 x2 = gated x0 x1 x2 := by
  funext i
  rw [val_main_v15_apply, val_main_v14_apply, val_main_v13_apply, val_main_cst_2_apply, val_main_v12_apply,
    val_main_v11_apply, val_main_cst_1_apply, val_main_v10_apply, val_main_v9_apply, val_main_v8_apply,
    val_main_v3_apply, val_main_v7_apply]
  simp only [val_main_v2_apply, val_main_v6_apply, val_main_v0_apply, val_main_v4_apply, val_main_v1_apply,
    val_main_v5_apply, val_main_cst_apply, val_main_cst_0_apply, left_v0, right_v0, right_v3, left_v4, right_v4,
    right_v7, Ideal.mulf_def, Ideal.addf_def, Ideal.hostDivf_def, Ideal.hostUnary_exp_def, Ideal.hostNegf_def,
    Ideal.negf_def, Ideal.maximumf_def, Ideal.ofBits_def, Ideal.ofBits_zero_f32, one_f32]
  rw [logistic_double]
  rfl

end Cert.Gate.Ref

end
-- ==== Proof.KernelPayload.lean ====
/-
  What the kernel body stores, entry by entry.

  On one block of 5000 rows the body forms `h = max (xb · W1) 0` (a product of a [5000, 256] block with the [256, 16]
  weight into a zero accumulator, clamped below at zero), then `s = h · W2` (with the [16, 256] weight, again into a
  zero accumulator), and stores `xb · σ(2 · s)`. The narrowings to the sixteen-bit format between the steps are the
  identity on extended reals. A matrix product into a zero accumulator, read at an entry `(p, q)`, is the plain sum
  over the one contracted axis of left `(p, k)` times right `(k, q)`; with that the stored entry `(p, q)` is
  `xb (p, q) · σ(2 · ∑ k, max (∑ j, xb (p, j) · W1 (j, k)) 0 · W2 (k, q))`.
-/
import proofs.«148490_j83837761618430_1_alg».proof.Proof.Gen.KernelIdeal.Skeleton
import proofs.«148490_j83837761618430_1_alg».proof.Proof.GateSpec
import Idealize.ShloMosaic.Lib.ValueIdx
import Idealize.ShloMosaic.PureOps.Ideal.Laws

noncomputable section

open scoped BigOperators
open Idealize.ShloMosaic Idealize.ShloMosaic.ValueIdx

namespace Cert.Gate.Body

open Cert.KernelIdeal Cert.KernelIdeal.Gen Cert.Gate

/-! ## The operand indices of the two products, axis by axis -/

theorem lhs_down_0 (i : S5000x16.Idx) (q : dot_S5000x256_S256x16_S5000x16_1_0_0_1_n_n.contr.Idx) :
    (dot_S5000x256_S256x16_S5000x16_1_0_0_1_n_n.lhsIdx i q 0).val = (i 0).val := by
  unfold DotDims.lhsIdx
  rw [dif_neg (show ¬(0 : Fin S5000x256.rank) ∈ dot_S5000x256_S256x16_S5000x16_1_0_0_1_n_n.lhsBatch by decide), dif_pos (show (0 : Fin S5000x256.rank) ∈ dot_S5000x256_S256x16_S5000x16_1_0_0_1_n_n.lhsNonContracting by decide)]
  rfl
theorem lhs_down_1 (i : S5000x16.Idx) (q : dot_S5000x256_S256x16_S5000x16_1_0_0_1_n_n.contr.Idx) :
    (dot_S5000x256_S256x16_S5000x16_1_0_0_1_n_n.lhsIdx i q 1).val = (q ⟨0, by decide⟩).val :=
  dot_S5000x256_S256x16_S5000x16_1_0_0_1_n_n.lhsIdx_val_of_single rfl i q
theorem rhs_down_0 (i : S5000x16.Idx) (q : dot_S5000x256_S256x16_S5000x16_1_0_0_1_n_n.contr.Idx) :
    (dot_S5000x256_S256x16_S5000x16_1_0_0_1_n_n.rhsIdx i q 0).val = (q ⟨0, by decide⟩).val :=
  dot_S5000x256_S256x16_S5000x16_1_0_0_1_n_n.rhsIdx_val_of_single rfl i q
theorem rhs_down_1 (i : S5000x16.Idx) (q : dot_S5000x256_S256x16_S5000x16_1_0_0_1_n_n.contr.Idx) :
    (dot_S5000x256_S256x16_S5000x16_1_0_0_1_n_n.rhsIdx i q 1).val = (i 1).val := by
  unfold DotDims.rhsIdx
  rw [dif_neg (show ¬(1 : Fin S256x16.rank) ∈ dot_S5000x256_S256x16_S5000x16_1_0_0_1_n_n.rhsBatch by decide), dif_pos (show (1 : Fin S256x16.rank) ∈ dot_S5000x256_S256x16_S5000x16_1_0_0_1_n_n.rhsNonContracting by decide)]
  rfl

theorem lhs_up_0 (i : S5000x256.Idx) (q : dot_S5000x16_S16x256_S5000x256_1_0_0_1_n_n.contr.Idx) :
    (dot_S5000x16_S16x256_S5000x256_1_0_0_1_n_n.lhsIdx i q 0).val = (i 0).val := by
  unfold DotDims.lhsIdx
  rw [dif_neg (show ¬(0 : Fin S5000x16.rank) ∈ dot_S5000x16_S16x256_S5000x256_1_0_0_1_n_n.lhsBatch by decide), dif_pos (show (0 : Fin S5000x16.rank) ∈ dot_S5000x16_S16x256_S5000x256_1_0_0_1_n_n.lhsNonContracting by decide)]
  rfl
theorem lhs_up_1 (i : S5000x256.Idx) (q : dot_S5000x16_S16x256_S5000x256_1_0_0_1_n_n.contr.Idx) :
    (dot_S5000x16_S16x256_S5000x256_1_0_0_1_n_n.lhsIdx i q 1).val = (q ⟨0, by decide⟩).val :=
  dot_S5000x16_S16x256_S5000x256_1_0_0_1_n_n.lhsIdx_val_of_single rfl i q
theorem rhs_up_0 (i : S5000x256.Idx) (q : dot_S5000x16_S16x256_S5000x256_1_0_0_1_n_n.contr.Idx) :
    (dot_S5000x16_S16x256_S5000x256_1_0_0_1_n_n.rhsIdx i q 0).val = (q ⟨0, by decide⟩).val :=
  dot_S5000x16_S16x256_S5000x256_1_0_0_1_n_n.rhsIdx_val_of_single rfl i q
theorem rhs_up_1 (i : S5000x256.Idx) (q : dot_S5000x16_S16x256_S5000x256_1_0_0_1_n_n.contr.Idx) :
    (dot_S5000x16_S16x256_S5000x256_1_0_0_1_n_n.rhsIdx i q 1).val = (i 1).val := by
  unfold DotDims.rhsIdx
  rw [dif_neg (show ¬(1 : Fin S16x256.rank) ∈ dot_S5000x16_S16x256_S5000x256_1_0_0_1_n_n.rhsBatch by decide), dif_pos (show (1 : Fin S16x256.rank) ∈ dot_S5000x16_S16x256_S5000x256_1_0_0_1_n_n.rhsNonContracting by decide)]
  rfl

/-! ## The two products at an entry -/

/-- The block against the first weight, into a zero accumulator, at entry `(p, q)`: the sum over the 256 columns. -/
theorem down_apply (a : FVec Ideal S5000x256 .bf16) (b : FVec Ideal S256x16 .bf16) (p : Fin 5000) (q : Fin 16) :
    matmul dot_S5000x256_S256x16_S5000x16_1_0_0_1_n_n none a b (constant S5000x16 .f32 0x00000000#32) (ix2 (n0 := 5000) (n1 := 16) p q)
      = ∑ k : Fin 256, a (ix2 (n0 := 5000) (n1 := 256) p k) * b (ix2 (n0 := 256) (n1 := 16) k q) := by
  simp only [matmul]
  rw [Ideal.matmul_constant_zero_apply, ← Equiv.sum_comp (ValueIdx.contrEquiv1 dot_S5000x256_S256x16_S5000x16_1_0_0_1_n_n 256 rfl rfl).symm]
  refine Finset.sum_congr rfl fun k _ => ?_
  have hk := ValueIdx.contrEquiv1_symm_val dot_S5000x256_S256x16_S5000x16_1_0_0_1_n_n 256 rfl rfl k
  have el : dot_S5000x256_S256x16_S5000x16_1_0_0_1_n_n.lhsIdx (ix2 (n0 := 5000) (n1 := 16) p q) ((ValueIdx.contrEquiv1 dot_S5000x256_S256x16_S5000x16_1_0_0_1_n_n 256 rfl rfl).symm k) = ix2 (n0 := 5000) (n1 := 256) p k := funext fun x => Fin.ext (by
    match x with
    | ⟨0, _⟩ => exact lhs_down_0 _ _
    | ⟨1, _⟩ => exact (lhs_down_1 _ _).trans hk)
  have er : dot_S5000x256_S256x16_S5000x16_1_0_0_1_n_n.rhsIdx (ix2 (n0 := 5000) (n1 := 16) p q) ((ValueIdx.contrEquiv1 dot_S5000x256_S256x16_S5000x16_1_0_0_1_n_n 256 rfl rfl).symm k) = ix2 (n0 := 256) (n1 := 16) k q := funext fun x => Fin.ext (by
    match x with
    | ⟨0, _⟩ => exact (rhs_down_0 _ _).trans hk
    | ⟨1, _⟩ => exact rhs_down_1 _ _)
  rw [el, er]

/-- The hidden block against the second weight, into a zero accumulator, at entry `(p, q)`: the sum over the 16 hidden entries. -/
theorem up_apply (a : FVec Ideal S5000x16 .bf16) (b : FVec Ideal S16x256 .bf16) (p : Fin 5000) (q : Fin 256) :
    matmul dot_S5000x16_S16x256_S5000x256_1_0_0_1_n_n none a b (constant S5000x256 .f32 0x00000000#32) (ix2 (n0 := 5000) (n1 := 256) p q)
      = ∑ k : Fin 16, a (ix2 (n0 := 5000) (n1 := 16) p k) * b (ix2 (n0 := 16) (n1 := 256) k q) := by
  simp only [matmul]
  rw [Ideal.matmul_constant_zero_apply, ← Equiv.sum_comp (ValueIdx.contrEquiv1 dot_S5000x16_S16x256_S5000x256_1_0_0_1_n_n 16 rfl rfl).symm]
  refine Finset.sum_congr rfl fun k _ => ?_
  have hk := ValueIdx.contrEquiv1_symm_val dot_S5000x16_S16x256_S5000x256_1_0_0_1_n_n 16 rfl rfl k
  have el : dot_S5000x16_S16x256_S5000x256_1_0_0_1_n_n.lhsIdx (ix2 (n0 := 5000) (n1 := 256) p q) ((ValueIdx.contrEquiv1 dot_S5000x16_S16x256_S5000x256_1_0_0_1_n_n 16 rfl rfl).symm k) = ix2 (n0 := 5000) (n1 := 16) p k := funext fun x => Fin.ext (by
    match x with
    | ⟨0, _⟩ => exact lhs_up_0 _ _
    | ⟨1, _⟩ => exact (lhs_up_1 _ _).trans hk)
  have er : dot_S5000x16_S16x256_S5000x256_1_0_0_1_n_n.rhsIdx (ix2 (n0 := 5000) (n1 := 256) p q) ((ValueIdx.contrEquiv1 dot_S5000x16_S16x256_S5000x256_1_0_0_1_n_n 16 rfl rfl).symm k) = ix2 (n0 := 16) (n1 := 256) k q := funext fun x => Fin.ext (by
    match x with
    | ⟨0, _⟩ => exact (rhs_up_0 _ _).trans hk
    | ⟨1, _⟩ => exact rhs_up_1 _ _)
  rw [el, er]

/-! ## The stored value at an entry -/

/-- The logistic of a vector, read at an entry, is the extended reals' logistic of the entry. -/
theorem logistic_at {s : Shape} {φ : FTy} (v : FVec Ideal s φ) (i : s.Idx) : logistic v i = Ideal.logistic (v i) := rfl

/-- Entry `(p, q)` of what the body stores, from the three loaded blocks. -/
theorem stored_apply (xb : Vec Ideal S5000x256 .f32) (w1b : Vec Ideal S256x16 .f32) (w2b : Vec Ideal S16x256 .f32)
    (p : Fin 5000) (q : Fin 256) :
    k0_pay1 (F := Ideal) xb w1b w2b (ix2 (n0 := 5000) (n1 := 256) p q)
      = xb (ix2 (n0 := 5000) (n1 := 256) p q) * Ideal.logistic (2 * ∑ k : Fin 16,
          max (∑ j : Fin 256, xb (ix2 (n0 := 5000) (n1 := 256) p j) * w1b (ix2 (n0 := 256) (n1 := 16) j k)) 0
            * w2b (ix2 (n0 := 16) (n1 := 256) k q)) := by
  unfold k0_pay1
  rw [mulf_apply, logistic_at, mulf_apply, broadcast_apply, up_apply]
  simp only [truncf_apply, maximumf_apply, broadcast_apply, down_apply, Ideal.ofBits_def, Ideal.ofBits_zero_f32, two_f32]

/-- The stored entry is `gated` of the whole arrays at the array index `e` the entry lands on, given that the loaded
    blocks are the arrays read there: the `x` block's row `p` is row `e 0` of `x`, the two weight blocks are the
    weights, and the entry's column is `e 1`. -/
theorem stored_is_gated (xb : Vec Ideal S5000x256 .f32) (w1b : Vec Ideal S256x16 .f32) (w2b : Vec Ideal S16x256 .f32)
    (X : Rows.Idx → EReal) (W1 : Down.Idx → EReal) (W2 : Up.Idx → EReal) (p : Fin 5000) (q : Fin 256) (e : Rows.Idx)
    (hxe : xb (ix2 (n0 := 5000) (n1 := 256) p q) = X e)
    (hx : ∀ j : Fin 256, xb (ix2 (n0 := 5000) (n1 := 256) p j) = X (ix2 (n0 := 500000) (n1 := 256) (e 0) j))
    (h1 : ∀ (j : Fin 256) (k : Fin 16), w1b (ix2 (n0 := 256) (n1 := 16) j k) = W1 (ix2 (n0 := 256) (n1 := 16) j k))
    (h2 : ∀ k : Fin 16, w2b (ix2 (n0 := 16) (n1 := 256) k q) = W2 (ix2 (n0 := 16) (n1 := 256) k (e 1))) :
    k0_pay1 (F := Ideal) xb w1b w2b (ix2 (n0 := 5000) (n1 := 256) p q) = gated X W1 W2 e := by
  rw [stored_apply, hxe]
  simp only [hx, h1, h2]
  rfl

end Cert.Gate.Body

end
-- ==== Proof.KernelBlocks.lean ====
/-
  From blocks to the array: after the run the result array is `Cert.Gate.gated` of the three argument arrays.

  The grid has 100 points; point `t` fetches rows `5000·t … 5000·t + 4999` of `x` (all 256 columns) and both weights
  whole, and writes back the same rows of the result. So entry `(p, q)` of the block point `t` writes lands on the
  array index `(5000·t + p, q)`, the `x` block's row `p` is that array row, and what is stored there is `gated` at
  that index (`Cert.Gate.Body.stored_is_gated`). Every array row `r` lies in the block of point `r / 5000`, so the
  written blocks cover the array and it ends holding `gated` everywhere.
-/
import proofs.«148490_j83837761618430_1_alg».proof.Proof.Gen.KernelIdeal.Value
import proofs.«148490_j83837761618430_1_alg».proof.Proof.KernelPayload
import Idealize.ShloMosaic.Lib.Pipeline.Value

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.Gate.Blocks

open Cert.KernelIdeal Cert.KernelIdeal.Gen Cert.KernelIdeal.Value Cert.Gate

variable (m : (ℓ : Loc nD τ sig) → Buf (Elt Ideal) ℓ) (ρ : Dev nD → PrngReg)

/-- The three argument arrays as the region finds them, at their literal types. -/
abbrev xArr (c : Dev nD) : S500000x256.Idx → EReal := V m c main_arg0
abbrev w1Arr (c : Dev nD) : S256x16.Idx → EReal := V m c main_arg1
abbrev w2Arr (c : Dev nD) : S16x256.Idx → EReal := V m c main_arg2

/-- The result array: `gated` of the argument arrays. -/
abbrev result (c : Dev nD) : Buf (Elt Ideal) ((c : Thread nD τ).loc main_v0) :=
  gated (xArr m c) (w1Arr m c) (w2Arr m c)

theorem zero_offsets : (![0, 0] : Fin 2 → Nat) = fun _ => 0 := funext fun a => by fin_cases a <;> rfl

/-- The printed index maps over the hundred points: the `x` window moves with the result window down the rows,
    neither moves along the columns, and the weight windows stay at block zero. -/
theorem index_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 :=
  (by decide +kernel : ∀ t : Fin grid0.N, _)

/-- Every one of the hundred row blocks is some point's. -/
theorem row_block_onto : ∀ b : Fin 100, ∃ t : Fin cfg0.N, win0_3.index t (0 : Fin 2) = b.val ∧ win0_3.index t (1 : Fin 2) = 0 :=
  (by decide +kernel : ∀ b : Fin 100, ∃ t : Fin grid0.N, win0_3.index t (0 : Fin 2) = b.val ∧ win0_3.index t (1 : Fin 2) = 0)

/-- What point `t` writes back is block `t` of `gated` of the argument arrays. -/
theorem flushed_gated (c : Dev nD) (t : Fin cfg0.N) :
    (dats m 0 c).flushed 3 t = ((cfg0.win 3).blk t).view.read (Elt Ideal) (result m c) := by
  rw [flushed3]
  unfold out0_3
  rw [View.canon_unit_zero zero_offsets]
  simp only [View.ld_unit_zero (S := S5000x256) zero_offsets, View.ld_unit_zero (S := S256x16) zero_offsets,
    View.ld_unit_zero (S := S16x256) zero_offsets]
  obtain ⟨e0, e1, e2, e3, e4, e5, e6⟩ := index_facts t
  funext y
  obtain ⟨p, q, rfl⟩ : ∃ (p : Fin 5000) (q : Fin 256), y = ix2 p q := ⟨y 0, y 1, eq_ix2 y⟩
  show k0_pay1 (F := Ideal) (iblk m c 0 t) (iblk m c 1 t) (iblk m c 2 t) (ix2 (n0 := 5000) (n1 := 256) p q)
    = gated (xArr m c) (w1Arr m c) (w2Arr m c) (((cfg0.win 3).blk t).view.emb (ix2 (n0 := 5000) (n1 := 256) p q))
  refine Body.stored_is_gated (iblk m c 0 t) (iblk m c 1 t) (iblk m c 2 t) (xArr m c) (w1Arr m c) (w2Arr m c) p q
    (((cfg0.win 3).blk t).view.emb (ix2 (n0 := 5000) (n1 := 256) p q)) ?_ ?_ ?_ ?_
  · -- the entry itself: the `x` block at `(p, q)` is `x` at the array index the entry lands on
    show V m c main_arg0 (((cfg0.win 0).blk t).view.emb (ix2 (n0 := 5000) (n1 := 256) p q))
      = V m c main_arg0 (((cfg0.win 3).blk t).view.emb (ix2 (n0 := 5000) (n1 := 256) p q))
    refine congrArg _ ?_
    funext a; apply Fin.ext
    match a with
    | ⟨0, _⟩ => show win0_0.index t (0 : Fin 2) * 5000 + 1 * p.val = win0_3.index t (0 : Fin 2) * 5000 + 1 * p.val; omega
    | ⟨1, _⟩ => show win0_0.index t (1 : Fin 2) * 256 + 1 * q.val = win0_3.index t (1 : Fin 2) * 256 + 1 * q.val; omega
  · -- the block's row `p` is the array's row the entry lands on, column by column
    intro j
    show V m c main_arg0 (((cfg0.win 0).blk t).view.emb (ix2 (n0 := 5000) (n1 := 256) p j)) = V m c main_arg0 _
    refine congrArg _ ?_
    funext a; apply Fin.ext
    match a with
    | ⟨0, _⟩ => show win0_0.index t (0 : Fin 2) * 5000 + 1 * p.val = win0_3.index t (0 : Fin 2) * 5000 + 1 * p.val; omega
    | ⟨1, _⟩ => show win0_0.index t (1 : Fin 2) * 256 + 1 * j.val = j.val; omega
  · -- the first weight's block is the weight
    intro j k
    show V m c main_arg1 (((cfg0.win 1).blk t).view.emb (ix2 (n0 := 256) (n1 := 16) j k)) = V m c main_arg1 _
    refine congrArg _ ?_
    funext a; apply Fin.ext
    match a with
    | ⟨0, _⟩ => show win0_1.index t (0 : Fin 2) * 256 + 1 * j.val = j.val; omega
    | ⟨1, _⟩ => show win0_1.index t (1 : Fin 2) * 16 + 1 * k.val = k.val; omega
  · -- the second weight's block is the weight, read at the entry's column
    intro k
    show V m c main_arg2 (((cfg0.win 2).blk t).view.emb (ix2 (n0 := 16) (n1 := 256) k q)) = V m c main_arg2 _
    refine congrArg _ ?_
    funext a; apply Fin.ext
    match a with
    | ⟨0, _⟩ => show win0_2.index t (0 : Fin 2) * 16 + 1 * k.val = k.val; omega
    | ⟨1, _⟩ => show win0_2.index t (1 : Fin 2) * 256 + 1 * q.val = win0_3.index t (1 : Fin 2) * 256 + 1 * q.val; omega

/-- An index of the result array is in point `t`'s block iff each coordinate is in the block's range on its axis. -/
theorem mem_block (t : Fin cfg0.N) (i : S500000x256.Idx) :
    i ∈ ((cfg0.win 3).blk t).view.set ↔ ∀ a : Fin 2, win0_3.index t a * S5000x256.size a ≤ (i a).val
      ∧ (i a).val < win0_3.index t a * S5000x256.size a + S5000x256.size a := by
  show i ∈ ((View.whole main_v0).slice (win0_3.rect t)).set ↔ _
  rw [View.set_slice_whole, Rect.mem_set_unit]
  exact Iff.rfl

/-- Every index of the result array is in the block of the point its row's block belongs to: row `r` in block `r / 5000`. -/
theorem covered (i : S500000x256.Idx) :
    ∃ t : Fin cfg0.N, (cfg0.win 3).flush t = true ∧ i ∈ ((cfg0.win 3).blk t).view.set := by
  have hi0 : (i 0).val < 500000 := (i 0).isLt
  have hi1 : (i 1).val < 256 := (i 1).isLt
  obtain ⟨t, ht0, ht1⟩ := row_block_onto ⟨(i 0).val / 5000, by omega⟩
  have ht0' : win0_3.index t (0 : Fin 2) = (i 0).val / 5000 := ht0
  refine ⟨t, flush0_3 t, ?_⟩
  rw [mem_block]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 256 ≤ (i 1).val ∧ (i 1).val < win0_3.index t (1 : Fin 2) * 256 + 256
    omega

/-- The result array after the run is `gated` of the argument arrays. -/
theorem final_gated (c : Dev nD) : (dats m 0 c).arrAt 3 cfg0.N = result m c :=
  (dats m 0 c).arrAt_eq_of_cover 3 (result m c) (fun t _ => flushed_gated m c t) covered

/-- The run, read: the result array at `gated` of the arguments as launched, the arguments unchanged. -/
theorem run_gated : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_gated m c), (h c).2⟩) (run_blocks m ρ)

end Cert.Gate.Blocks

end
-- ==== Proof.lean ====
/-
  The certificate: a fused row kernel against its reference on the extended reals.

  Both programs take `x : [500000, 256]`, `W1 : [256, 16]`, `W2 : [16, 256]` and return
  `x · σ(2 · (max (x · W1) 0) · W2)`, `σ` the logistic, entry by entry (`Cert.Gate.gated`). The kernel walks the rows in
  100 blocks of 5000, forms both small products on the block, doubles by a product with the constant two and applies
  the logistic as one operation; the reference applies its two-layer map to `x` twice, adds the two equal results, and
  spells the logistic as a quotient. On the extended reals `2 · a = a + a` for every `a` and the quotient is the
  logistic by definition, so no finiteness of the inputs is used.

  The kernel's result array is read off its run block by block (`Cert.Gate.Blocks.run_gated`), the reference's off its
  run one operation at a time (`Cert.Gate.Ref.reference_is_gated`); both are `gated` of arguments that agree. The
  kernel's two frames are the generated ones, the reference's frame is its run with the result dropped, and the
  idealization rewrote nothing, so its statement is `True`.
-/
import proofs.«148490_j83837761618430_1_alg».proof.Defs
import proofs.«148490_j83837761618430_1_alg».proof.Proof.Gen.Kernel
import proofs.«148490_j83837761618430_1_alg».proof.Proof.Gen.Kernel.Skeleton
import proofs.«148490_j83837761618430_1_alg».proof.Proof.Gen.Kernel.Launch
import proofs.«148490_j83837761618430_1_alg».proof.Proof.Gen.Kernel.Points
import proofs.«148490_j83837761618430_1_alg».proof.Proof.Gen.Kernel.Frame
import proofs.«148490_j83837761618430_1_alg».proof.Proof.Gen.KernelIdeal
import proofs.«148490_j83837761618430_1_alg».proof.Proof.Gen.KernelIdeal.Skeleton
import proofs.«148490_j83837761618430_1_alg».proof.Proof.Gen.KernelIdeal.Launch
import proofs.«148490_j83837761618430_1_alg».proof.Proof.Gen.KernelIdeal.Points
import proofs.«148490_j83837761618430_1_alg».proof.Proof.Gen.KernelIdeal.Frame
import proofs.«148490_j83837761618430_1_alg».proof.Proof.Gen.ReferenceIdeal
import proofs.«148490_j83837761618430_1_alg».proof.Proof.Gen.Pre_finite_inputs
import proofs.«148490_j83837761618430_1_alg».proof.Proof.Gen.KernelIdeal.Value
import proofs.«148490_j83837761618430_1_alg».proof.Proof.Gen.ReferenceIdeal.Run
import proofs.«148490_j83837761618430_1_alg».proof.Proof.Gen.ReferenceIdeal.Read
import proofs.«148490_j83837761618430_1_alg».proof.Proof.GateSpec
import proofs.«148490_j83837761618430_1_alg».proof.Proof.RefGate
import proofs.«148490_j83837761618430_1_alg».proof.Proof.KernelPayload
import proofs.«148490_j83837761618430_1_alg».proof.Proof.KernelBlocks
import Idealize.ShloMosaic.Adequacy
import Idealize.ShloMosaic.Init

noncomputable section

namespace Cert.Proof

open Idealize.ShloMosaic Idealize.ShloMosaic.TcCoe Idealize.SL.Sem

/-- The word-level kernel runs and leaves its arguments as they were: the generated frame. -/
theorem frame_kernel : Cert.frame_Kernel := fun m ρ _ => Cert.Kernel.Gen.frame m ρ

/-- The same for the kernel read on the extended reals. -/
theorem frame_kernel_ideal : Cert.frame_KernelIdeal := fun m ρ _ => Cert.KernelIdeal.Gen.frame m ρ

/-- The reference runs and leaves its arguments as they were: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals the kernel's result array ends at `gated` of its arguments and the reference's at `gated` of
    its own, and the arguments agree. -/
theorem algebraic : Cert.algebraic_KernelIdeal_ReferenceIdeal := by
  intro m ρ m' ρ' _ hagree
  refine ⟨fun c => Cert.Gate.Blocks.result m c, Cert.Gate.Blocks.run_gated m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.Gate.Ref.reference_is_gated, (hagree c).1, (hagree c).2.1,
    (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
